-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v22 : BitVec 1 := Scalar.cmpi .eq arg0 c63_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  inb_S4096x128_S1x1_0_0 : ∀ a, (![0, 0] : Fin 2 → Nat) a + S1x1.size a ≤ S4096x128.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S1 : Shape := ⟨1, ![1]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S33554432, .f32⟩
  | .hbm, ⟨4, _⟩ => ⟨S1, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .i1⟩
  | .hbm, ⟨10, _⟩ => ⟨S_, .i1⟩
  | .hbm, ⟨11, _⟩ => ⟨S_, .f32⟩
  | .hbm, ⟨12, _⟩ => ⟨S_, .i1⟩
  | .hbm, ⟨13, _⟩ => ⟨S_, .i1⟩
  | .hbm, ⟨14, _⟩ => ⟨S_, .f32⟩
  | .hbm, ⟨15, _⟩ => ⟨S_, .i1⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i32⟩
  | .hbm, ⟨21, _⟩ => ⟨S1, .i32⟩
  | .hbm, ⟨22, _⟩ => ⟨S33554432, .f32⟩
  | .hbm, ⟨23, _⟩ => ⟨S33554432, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  slices_S33554432_S1_0 : S33554432.Slices ![0] S1
  shapeCasts_S1_S_ : S1.ShapeCasts S_
  bcast_S_S1 : S_.BroadcastsInDim S1 (![] : Fin 0 → Fin S1.rank)
  reducesTo_S33554432_S_d0 : S33554432.ReducesTo [0] S_
  h_S_ : 0 < S_.numel
  scatter_S33554432_S1_S__n_0_0_0_wf : ScatterDims.WF S33554432 S1 S_ [] [0] [0] 0

variable [Facts₀]

def scatter_S33554432_S1_S__n_0_0_0 : ScatterDims S33554432 S1 S_ where
  updateWindowDims := []
  insertedWindowDims := [0]
  scatterDimsToOperandDims := [0]
  indexVectorDim := 0
  wf := scatter_S33554432_S1_S__n_0_0_0_wf

class Facts : Prop extends Facts₀ where

variable [Facts]
-- ==== Proof.KernelPieces.lean ====
/-
  What the kernel's run leaves in its result, for any float values.

  The body keeps a one-entry accumulator across the 64 grid points.  At point 0 it zeroes it, adds entry 0's correction
  (read from the corner of the two input blocks) and then the block's sum; at every later point it adds that point's
  block sum; at the last point it also copies the accumulator to the output block, which is written back once.
  After the region the host reshapes the 1 x 1 result to a scalar and divides it by the constant 2^25.
-/
import proofs.«165581_j31714038514005_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A load through the whole rectangle, after stores of which the LAST went through the whole rectangle, reads that
    last store's payload. -/
theorem readCov_cons_whole {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The 1 x 1 corner (row 0, lane 0) of an input block, as the body loads it at point 0. -/
abbrev corner (x : Vec F S4096x128 .f32) : Vec F S1x1 .f32 :=
  View.ld x (Rect.unit (s := S4096x128) ![0, 0] S1x1.size Gen.inb_S4096x128_S1x1_0_0)

/-- POINT 0: the accumulator ends at the block sum added to (zero plus the correction of the blocks' corner). -/
theorem scratch_first (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : cond0_0 i) (hc1 : cond0_1 i) (hc2 : ¬cond0_2 i)
    (x0 x1 : Vec F S4096x128 .f32) :
    sout0_A_0 c i a1 h1 a2 h2 a3 h3 a4 h4 hc0 hc1 hc2 x0 x1
      = k0_pay3 x0 x1 (k0_pay2 (corner x0) (corner x1) (k0_pay1 (F := F))) := by
  unfold sout0_A_0
  rw [View.read_writes_eq_canon _ _ _ (scover0_A_0 c i a1 h1 a2 h2 a3 h3 a4 h4 hc0 hc1 hc2 x0 x1)]
  unfold kernelRun0_A
  dsimp only
  sl_unfold_words
  rw [View.canon_cons_unit_zero (S := S1x1) hz]
  simp only [View.readAt_eq_ld, h1.read_unread, h2.read_unread, View.ld_unit_zero (S := S4096x128) hz,
    readCov_cons_whole (S := S1x1) _ hz]

/-- A MIDDLE POINT: the accumulator ends at its old contents plus the block sum. -/
theorem scratch_mid (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i) (hc2 : ¬cond0_2 i)
    (x0 x1 : Vec F S4096x128 .f32) (xs0 : Vec F S1x1 .f32) :
    sout0_B_0 c i a1 h1 a2 h2 a3 h3 a4 h4 hc0 hc1 hc2 x0 x1 xs0 = k0_pay3 x0 x1 xs0 := by
  unfold sout0_B_0
  rw [View.read_writes_eq_canon _ _ _ (scover0_B_0 c i a1 h1 a2 h2 a3 h3 a4 h4 hc0 hc1 hc2 x0 x1 xs0)]
  unfold kernelRun0_B
  dsimp only
  sl_unfold_words
  rw [View.canon_unit_zero (S := S1x1) hz]
  simp only [View.readAt_eq_ld, h1.read_unread, h2.read_unread, h4.read_unread, View.ld_unit_zero (S := S4096x128) hz,
    View.ld_unit_zero (S := S1x1) hz]

/-- THE LAST POINT: the accumulator likewise, -/
theorem scratch_last (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i) (hc2 : cond0_2 i)
    (x0 x1 : Vec F S4096x128 .f32) (xs0 : Vec F S1x1 .f32) :
    sout0_C_0 c i a1 h1 a2 h2 a3 h3 a4 h4 hc0 hc1 hc2 x0 x1 xs0 = k0_pay3 x0 x1 xs0 := by
  unfold sout0_C_0
  rw [View.read_writes_eq_canon _ _ _ (scover0_C_0 c i a1 h1 a2 h2 a3 h3 a4 h4 hc0 hc1 hc2 x0 x1 xs0)]
  unfold kernelRun0_C
  dsimp only
  sl_unfold_words
  rw [View.canon_unit_zero (S := S1x1) hz]
  simp only [View.readAt_eq_ld, h1.read_unread, h2.read_unread, h4.read_unread, View.ld_unit_zero (S := S4096x128) hz,
    View.ld_unit_zero (S := S1x1) hz]

/-- and the output block is the accumulator's new contents read back. -/
theorem out_last (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i) (hc2 : cond0_2 i)
    (x0 x1 : Vec F S4096x128 .f32) (xs0 : Vec F S1x1 .f32) :
    out0_C_2 c i a1 h1 a2 h2 a3 h3 a4 h4 hc0 hc1 hc2 x0 x1 xs0 = k0_pay3 x0 x1 xs0 := by
  unfold out0_C_2
  rw [View.read_writes_eq_canon _ _ _ (cover0_C_2 c i a1 h1 a2 h2 a3 h3 a4 h4 hc0 hc1 hc2 x0 x1 xs0)]
  unfold kernelRun0_C
  dsimp only
  sl_unfold_words
  rw [View.canon_unit_zero (S := S1x1) hz]
  simp only [View.readAt_eq_ld, h1.read_unread, h2.read_unread, h4.read_unread, View.ld_unit_zero (S := S4096x128) hz,
    View.ld_unit_zero (S := S1x1) hz, readCov_cons_whole (S := S1x1) _ hz]

end Cert.KernelIdeal.Acc

end
-- ==== Proof.KernelRun.lean ====
/-
  The kernel's run, read: the accumulator after each grid point by recursion on the point, the one write-back of the
  output block at the last point, and the host's reshape and division after the region.
-/
import proofs.«165581_j31714038514005_1_alg».proof.Proof.KernelPieces

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The two input blocks of a grid point, at their literal type. -/
abbrev xblk (c : Dev nD) (t : Fin cfg0.N) : Vec F S4096x128 .f32 := iblk m c 0 t
abbrev yblk (c : Dev nD) (t : Fin cfg0.N) : Vec F S4096x128 .f32 := iblk m c 1 t

/-- THE ACCUMULATOR after point n: at point 0 the block sum on top of zero plus the corner's correction, afterwards
    the block sum on top of what the point before left. -/
def acc (c : Dev nD) : (n : ℕ) → n < cfg0.N → Vec F S1x1 .f32
  | 0, h => k0_pay3 (xblk m c ⟨0, h⟩) (yblk m c ⟨0, h⟩)
      (k0_pay2 (corner (xblk m c ⟨0, h⟩)) (corner (yblk m c ⟨0, h⟩)) (k0_pay1 (F := F)))
  | n + 1, h => k0_pay3 (xblk m c ⟨n + 1, h⟩) (yblk m c ⟨n + 1, h⟩) (acc c n (Nat.lt_of_succ_lt h))

/-- The scratch the frame carries from point to point IS that accumulator: by induction on the point. -/
theorem scratch_eq (c : Dev nD) : ∀ (n : ℕ) (h : n < cfg0.N), (outsAt0 m c n h).2 = acc m c n h
  | 0, h => by
    rw [outsAt0_A m c ⟨0, h⟩ rfl rfl (by dsimp only; omega)]
    dsimp only
    rw [scratch_first]
    rfl
  | n + 1, h => by
    have hN : cfg0.N = 64 := N_0
    have h0 : ¬(⟨n + 1, h⟩ : Fin cfg0.N).val % 64 = 0 := by dsimp only; omega
    by_cases h2 : (⟨n + 1, h⟩ : Fin cfg0.N).val % 64 = 63
    · rw [outsAt0_C m c ⟨n + 1, h⟩ h0 h0 h2]
      dsimp only
      rw [scratch_last]
      show k0_pay3 _ _ (outsAt0 m c n _).2 = k0_pay3 _ _ (acc m c n _)
      rw [scratch_eq c n]
    · rw [outsAt0_B m c ⟨n + 1, h⟩ h0 h0 h2]
      dsimp only
      rw [scratch_mid]
      show k0_pay3 _ _ (outsAt0 m c n _).2 = k0_pay3 _ _ (acc m c n _)
      rw [scratch_eq c n]

/-- At the last point the output block is the accumulator's new contents. -/
theorem out_eq (c : Dev nD) (n : ℕ) (h : n + 1 < cfg0.N) (hl : (n + 1) % 64 = 63) :
    (outsAt0 m c (n + 1) h).1 = acc m c (n + 1) h := by
  have hN : cfg0.N = 64 := N_0
  have h0 : ¬(⟨n + 1, h⟩ : Fin cfg0.N).val % 64 = 0 := by dsimp only; omega
  rw [outsAt0_C m c ⟨n + 1, h⟩ h0 h0 hl]
  dsimp only
  rw [out_last]
  show k0_pay3 _ _ (outsAt0 m c n _).2 = k0_pay3 _ _ (acc m c n _)
  rw [scratch_eq m c n]

theorem lastLt : 62 + 1 < cfg0.N := by rw [show cfg0.N = 64 from N_0]; decide

/-- The last grid point. -/
abbrev tLast : Fin cfg0.N := ⟨62 + 1, lastLt⟩

/-- The region's result: the accumulator after the last point, as contents of the 1 x 1 result array. -/
abbrev result (c : Dev nD) : Buf (Elt F) ((c : Thread nD τ).loc main_v2) := acc m c (62 + 1) lastLt

/-- The one write-back, at the last point, writes it: the result array is its own one block. -/
theorem flushed_eq (c : Dev nD) (t : Fin cfg0.N) (hf : (cfg0.win 2).flush t = true) :
    (dats m 0 c).flushed 2 t = ((cfg0.win 2).blk t).view.read (Elt F) (result m c) := by
  have hN : cfg0.N = 64 := N_0
  have h63 : t.val = 62 + 1 := by have := (flush0_2 t).mp hf; have := t.isLt; omega
  obtain rfl : t = tLast := Fin.ext h63
  show (cfg0.win 2).cut (grid0.coords tLast) ((dats m 0 c).after 2 tLast) = _
  rw [after0_2, out_eq m c 62 lastLt (by decide)]
  have hz' : (fun a => win0_2.index tLast a * main_v2.ty.shape.size a) = fun _ => 0 := funext fun a => by fin_cases a <;> rfl
  exact (Memref.read_access_unit_zero (Elt F) main_v2 hz' (fun a => by rw [congrFun hz' a]; simp) (result m c)).symm

/-- So the result array ends holding the accumulator after the last point. -/
theorem final (c : Dev nD) : (dats m 0 c).arrAt 2 cfg0.N = result m c :=
  (dats m 0 c).arrAt_eq_of_cover 2 (result m c) (flushed_eq m c) fun i =>
    ⟨tLast, (flush0_2 tLast).mpr (by decide), by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from rfl, show win0_2.xsize (grid0.coords tLast) 0 = 1 from rfl]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from rfl, show win0_2.xsize (grid0.coords tLast) 1 = 1 from rfl]; omega⟩

/-- After the region the host reshapes the result to a scalar and divides it by the constant. -/
theorem tail_eq (c : Dev nD) : Pipeline.afterTail₀ cfgs (dats m) 0 (V0 m) [hostOps1] c main_v4
    = Host.divf (F := F) (shapeCast S_ (result m c) shapeCasts_S1x1_S_) (constant (F := F) S_ .f32 0x4C000000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2)
      = result m c :=
    (Pipeline.withArrays_arr spec0 launch0.win.arr_inj c _ _ 2).trans (final m c)
  rw [e]
  rfl

/-- THE RUN, READ: every weakly fair execution ends with the result at the accumulator after the last point, reshaped to
    a scalar and divided by the constant, and with both arguments unchanged. -/
theorem run : θ_run defs (onTc (τ := τ) (main (F := F))) ⟨m, fun _ => 0, ρ⟩ fun r => ∀ c : Dev nD,
      r.2.mem ((c.tc : Thread nD τ).loc main_v4)
        = Host.divf (F := F) (shapeCast S_ (result m c) shapeCasts_S1x1_S_) (constant (F := F) S_ .f32 0x4C000000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.Spec.lean ====
/-
  The mathematics of the claim, over the extended reals and over no program.

  Both programs compute the mean of the squared gaps |x i - y i| of two flat arrays of 2^25 entries, entry 0's gap
  first rescaled (multiplied by the constant 0.8 when it is exactly 3, 4, 5 or 6).  One side sums the squares of the
  CORRECTED gaps directly.  The other sums the squares of the UNCORRECTED gaps, block of 4096 x 128 by block, onto a
  start value that already holds the difference (corrected square - uncorrected square) of entry 0.  The two totals
  agree exactly when the uncorrected square of entry 0 can be cancelled, that is when it is a real number; every
  other step only reorders a finite sum, which the extended reals allow without any finiteness.
-/
import Idealize.ShloMosaic.PureOps.Ideal
import Idealize.ShloMosaic.PureOps.Ideal.Laws
import Idealize.ShloMosaic.Lib.ValueIdx
import Mathlib.Data.EReal.Operations
import Mathlib.Algebra.BigOperators.Fin

noncomputable section

open scoped BigOperators
open Idealize.ShloMosaic Idealize.ShloMosaic.ValueIdx

namespace Cert.MeanSq

/-- The flat arrays' shape. -/
abbrev Flat : Shape := ⟨1, ![33554432]⟩

/-- The first entry's index. -/
abbrev first : Flat.Idx := ix1 (0 : Fin 33554432)

/-- The gap |a - b| as the extended reals spell an absolute value. -/
def gap (a b : EReal) : EReal := max (a - b) (-(a - b))

/-- The conditional rescale of one gap: times the constant 0.8 (its binary value) when the gap is exactly 3, 4, 5 or 6. -/
def rescale (d : EReal) : EReal :=
  Scalar.select
    (IntOp.ori (IntOp.ori (IntOp.ori (Ideal.cmp .oeq d (Ideal.ofBits .f32 0x40400000#32))
      (Ideal.cmp .oeq d (Ideal.ofBits .f32 0x40800000#32))) (Ideal.cmp .oeq d (Ideal.ofBits .f32 0x40A00000#32)))
      (Ideal.cmp .oeq d (Ideal.ofBits .f32 0x40C00000#32)))
    (d * Ideal.ofBits .f32 0x3F4CCCCD#32) d

/-- The uncorrected squared gap at an entry. -/
def sqgap (x y : Flat.Idx → EReal) (i : Flat.Idx) : EReal := gap (x i) (y i) * gap (x i) (y i)

/-- The corrected gap: entry 0's rescaled, every other entry's as it is. -/
def fixed (x y : Flat.Idx → EReal) (i : Flat.Idx) : EReal :=
  if i = first then rescale (gap (x first) (y first)) else gap (x i) (y i)

/-- What entry 0's correction adds to the sum of uncorrected squares. -/
def correction (x y : Flat.Idx → EReal) : EReal :=
  rescale (gap (x first) (y first)) * rescale (gap (x first) (y first)) - gap (x first) (y first) * gap (x first) (y first)

/-! ## The gap of two reals is a real -/

theorem gap_coe (a b : ℝ) : gap (a : EReal) (b : EReal) = ((max (a - b) (-(a - b)) : ℝ) : EReal) := by
  unfold gap
  rw [← EReal.coe_sub, ← EReal.coe_neg]
  exact (EReal.coe_strictMono.monotone.map_max).symm

theorem sqgap_first_real (x y : Flat.Idx → EReal) (a b : ℝ) (hx : x first = a) (hy : y first = b) :
    ∃ r : ℝ, gap (x first) (y first) * gap (x first) (y first) = (r : EReal) := by
  refine ⟨max (a - b) (-(a - b)) * max (a - b) (-(a - b)), ?_⟩
  rw [hx, hy, gap_coe, ← EReal.coe_mul]

/-! ## Row (4096 t + r), lane l of the 262144 x 128 view is flat entry (4096 t + r) * 128 + l -/

/-- The flat entry of block t, row r, lane l. -/
def flatIx (t : Fin 64) (r : Fin 4096) (l : Fin 128) : Flat.Idx :=
  ix1 (⟨(4096 * t.val + r.val) * 128 + l.val, by have := t.isLt; have := r.isLt; have := l.isLt; omega⟩ : Fin 33554432)

theorem flatIx_val (t : Fin 64) (r : Fin 4096) (l : Fin 128) :
    ((flatIx t r l) 0).val = (4096 * t.val + r.val) * 128 + l.val := rfl

/-- Blocks, rows and lanes together number the flat entries once each. -/
def flatEquiv : Fin 64 × Fin 4096 × Fin 128 ≃ Flat.Idx where
  toFun p := flatIx p.1 p.2.1 p.2.2
  invFun i :=
    (⟨(i 0).val / 524288, by have h : (i 0).val < 33554432 := (i 0).isLt; omega⟩,
     ⟨(i 0).val / 128 % 4096, by omega⟩,
     ⟨(i 0).val % 128, by omega⟩)
  left_inv p := by
    obtain ⟨t, r, l⟩ := p
    have ht := t.isLt; have hr := r.isLt; have hl := l.isLt
    refine Prod.ext (Fin.ext ?_) (Prod.ext (Fin.ext ?_) (Fin.ext ?_))
    · show ((flatIx t r l) 0).val / 524288 = t.val
      rw [flatIx_val]; omega
    · show ((flatIx t r l) 0).val / 128 % 4096 = r.val
      rw [flatIx_val]; omega
    · show ((flatIx t r l) 0).val % 128 = l.val
      rw [flatIx_val]; omega
  right_inv i := by
    have h : (i 0).val < 33554432 := (i 0).isLt
    refine (congrArg ix1 (Fin.ext ?_)).trans (eq_ix1 i).symm
    show (4096 * ((i 0).val / 524288) + (i 0).val / 128 % 4096) * 128 + (i 0).val % 128 = (i 0).val
    omega

/-- So the sum block by block, row by row, lane by lane is the sum over the flat entries. -/
theorem sum_blocks (f : Flat.Idx → EReal) :
    ∑ t : Fin 64, ∑ r : Fin 4096, ∑ l : Fin 128, f (flatIx t r l) = ∑ i : Flat.Idx, f i := by
  rw [← Equiv.sum_comp flatEquiv f, Fintype.sum_prod_type]
  refine Finset.sum_congr rfl fun t _ => ?_
  rw [Fintype.sum_prod_type]
  rfl

/-! ## The running total over the blocks -/

/-- A start value, then one summand more per step, added on the right. -/
def chain (base : EReal) (S : ℕ → EReal) : ℕ → EReal
  | 0 => base + S 0
  | n + 1 => chain base S n + S (n + 1)

theorem chain_eq (base : EReal) (S : ℕ → EReal) (n : ℕ) :
    chain base S n = base + ∑ t ∈ Finset.range (n + 1), S t := by
  induction n with
  | zero => simp [chain]
  | succ n ih => rw [chain, ih, Finset.sum_range_succ _ (n + 1), add_assoc]

/-- Block t's sum of uncorrected squares (nothing past the 64 blocks). -/
def blockSum (x y : Flat.Idx → EReal) (t : ℕ) : EReal :=
  if h : t < 64 then ∑ r : Fin 4096, ∑ l : Fin 128, sqgap x y (flatIx ⟨t, h⟩ r l) else 0

theorem sum_blockSum (x y : Flat.Idx → EReal) :
    ∑ t ∈ Finset.range 64, blockSum x y t = ∑ i : Flat.Idx, sqgap x y i := by
  rw [Finset.sum_range, ← sum_blocks]
  refine Finset.sum_congr rfl fun t _ => ?_
  unfold blockSum
  rw [dif_pos t.isLt]

/-! ## The law that joins the two sides -/

/-- Replacing one summand d i0 * d i0 by c * c changes the sum by c * c - d i0 * d i0, when d i0 * d i0 is a real
    (an infinite one could not be cancelled). -/
theorem corrected_sum {ι : Type} [Fintype ι] [DecidableEq ι] (i0 : ι) (d : ι → EReal) (c : EReal) (r : ℝ)
    (hr : d i0 * d i0 = (r : EReal)) :
    (c * c - d i0 * d i0) + ∑ i, d i * d i
      = ∑ i, (if i = i0 then c else d i) * (if i = i0 then c else d i) := by
  rw [← Finset.add_sum_erase Finset.univ (fun i => d i * d i) (Finset.mem_univ i0),
    ← Finset.add_sum_erase Finset.univ (fun i => (if i = i0 then c else d i) * (if i = i0 then c else d i)) (Finset.mem_univ i0)]
  simp only [if_true]
  rw [← add_assoc, hr, EReal.sub_add_cancel]
  congr 1
  refine Finset.sum_congr rfl fun i hi => ?_
  rw [if_neg (Finset.ne_of_mem_erase hi)]

/-- THE TWO TOTALS AGREE: the start value z, plus entry 0's correction, plus the 64 block sums of uncorrected squares
    taken in order, is z plus the sum of the corrected squares — for arrays whose first entries are reals. -/
theorem total_eq (x y : Flat.Idx → EReal) (z : EReal) (a b : ℝ) (hx : x first = a) (hy : y first = b) :
    chain (z + correction x y) (blockSum x y) 63 = z + ∑ i : Flat.Idx, fixed x y i * fixed x y i := by
  obtain ⟨r, hr⟩ := sqgap_first_real x y a b hx hy
  rw [chain_eq, sum_blockSum, add_assoc]
  unfold correction sqgap fixed
  exact congrArg (fun e => z + e)
    (corrected_sum first (fun i => gap (x i) (y i)) (rescale (gap (x first) (y first))) r hr)

end Cert.MeanSq

end
-- ==== Proof.KernelPayloads.lean ====
/-
  The body's three payloads read at their one index, over the extended reals: the zero the accumulator is reset to,
  the correction of the blocks' corner added to it, and a block's sum of squared gaps added to it.
-/
import proofs.«165581_j31714038514005_1_alg».proof.Proof.Gen.KernelIdeal.Skeleton
import proofs.«165581_j31714038514005_1_alg».proof.Proof.Spec
import Idealize.ShloMosaic.Lib.Pipeline.Value
import Idealize.ShloMosaic.PureOps.Ideal.Laws
import Idealize.ShloMosaic.Lib.ValueIdx

noncomputable section

open scoped BigOperators
open Idealize.ShloMosaic Idealize.ShloMosaic.ValueIdx

namespace Cert.KernelIdeal.Pay

open Cert.KernelIdeal Cert.KernelIdeal.Gen Cert.MeanSq

/-- The reset stores the zero word's value. -/
theorem pay1_apply (j : S1x1.Idx) : k0_pay1 (F := Ideal) j = Ideal.ofBits .f32 0x00000000#32 := by
  simp only [k0_pay1, shapeCast_self]
  rfl

/-- The correction step: the accumulator plus (rescaled gap squared minus gap squared) of the two corner entries. -/
theorem pay2_apply (a b v : FVec Ideal S1x1 .f32) (j : S1x1.Idx) :
    k0_pay2 (F := Ideal) a b v j
      = v j + (rescale (gap (a j) (b j)) * rescale (gap (a j) (b j)) - gap (a j) (b j) * gap (a j) (b j)) := by
  simp only [k0_pay2, shapeCast_self]
  rfl

/-- A lane reduction of a 4096 x 128 block at row r is the sum over the 128 lanes. -/
theorem laneSum (P : FVec Ideal S4096x128 .f32) (h : S4096x128.Reduces [1] S4096) (hφ : FKind.Formats .f32)
    (hacc : (0x00000000#32 : BitVec 32) = FKind.add.neutral .f32 hφ) (r : Fin 4096) :
    multiReduction .add [1] S4096 P 0x00000000#32 h hφ hacc (ix1 r) = ∑ l : Fin 128, P (ix2 r l) :=
  (Ideal.multiReduction_add_single P _ h hφ hacc (ix1 r)).trans
    (Finset.sum_congr rfl fun l _ => congrArg P (funext fun a => Fin.ext (by
      match a with
      | ⟨0, _⟩ => rfl
      | ⟨1, _⟩ => rfl)))

/-- A row reduction of a 4096 x 1 column is the sum over the 4096 rows. -/
theorem rowSum (Q : FVec Ideal S4096x1 .f32) (h : S4096x1.Reduces [0] S1) (hφ : FKind.Formats .f32)
    (hacc : (0x00000000#32 : BitVec 32) = FKind.add.neutral .f32 hφ) :
    multiReduction .add [0] S1 Q 0x00000000#32 h hφ hacc (ix1 (0 : Fin 1)) = ∑ r : Fin 4096, Q (ix2 r (0 : Fin 1)) :=
  (Ideal.multiReduction_add_single Q _ h hφ hacc (ix1 (0 : Fin 1))).trans
    (Finset.sum_congr rfl fun r _ => congrArg Q (funext fun a => Fin.ext (by
      match a with
      | ⟨0, _⟩ => rfl
      | ⟨1, _⟩ => rfl)))

/-- The accumulation step: the accumulator plus the block's sum, row by row and lane by lane, of squared gaps. -/
theorem pay3_apply (x0 x1 : FVec Ideal S4096x128 .f32) (v : FVec Ideal S1x1 .f32) (j : S1x1.Idx) :
    k0_pay3 (F := Ideal) x0 x1 v j
      = v j + ∑ r : Fin 4096, ∑ l : Fin 128, gap (x0 (ix2 r l)) (x1 (ix2 r l)) * gap (x0 (ix2 r l)) (x1 (ix2 r l)) := by
  simp only [k0_pay3, shapeCast_self]
  show v j + shapeCast S1x1 _ shapeCasts_S1_S1x1 j = _
  refine congrArg (fun e => v j + e) ?_
  refine (shapeCast_apply _ shapeCasts_S1_S1x1 j (ix1 (0 : Fin 1)) ?_).trans ?_
  · rw [Shape.rowMajor_val_one, Shape.rowMajor_val_two]
    have h0 : (j 0).val < 1 := (j 0).isLt
    have h1 : (j 1).val < 1 := (j 1).isLt
    show (0 : ℕ) = (j 0).val * 1 + (j 1).val
    omega
  refine (rowSum _ _ _ _).trans ?_
  refine Finset.sum_congr rfl fun r _ => ?_
  refine (shapeCast_apply _ shapeCasts_S4096_S4096x1 (ix2 r (0 : Fin 1)) (ix1 r) ?_).trans ?_
  · rw [Shape.rowMajor_val_one, Shape.rowMajor_val_two]
    show r.val = r.val * 1 + 0
    omega
  refine (laneSum _ _ _ _ r).trans ?_
  exact Finset.sum_congr rfl fun l _ => rfl

end Cert.KernelIdeal.Pay

end
-- ==== Proof.KernelValue.lean ====
/-
  The kernel's result as extended reals: the accumulator after the last point is the running total of the
  specification — zero, plus entry 0's correction, plus the 64 block sums in order — over the two flat argument arrays.
-/
import proofs.«165581_j31714038514005_1_alg».proof.Proof.KernelRun
import proofs.«165581_j31714038514005_1_alg».proof.Proof.KernelPayloads

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Acc Cert.KernelIdeal.Pay Cert.MeanSq

variable (m : (ℓ : Loc nD τ sig) → Buf (Elt Ideal) ℓ)

/-- The two flat argument arrays. -/
abbrev X (c : Dev nD) : Flat.Idx → EReal := m ((c : Thread nD τ).loc main_arg0)
abbrev Y (c : Dev nD) : Flat.Idx → EReal := m ((c : Thread nD τ).loc main_arg1)

/-- The region finds each 262144 x 128 array as the host's reshape of its flat argument. -/
theorem V_v0 (c : Dev nD) : (V m c main_v0 : S262144x128.Idx → Elt Ideal .f32)
    = shapeCast S262144x128 (m ((c : Thread nD τ).loc main_arg0)) shapeCasts_S33554432_S262144x128 := by
  show StableHlo.after hostOps0 (fun b => m (c, b)) (Proc.devRef .tc main_v0) = _
  after_results
  rfl
theorem V_v1 (c : Dev nD) : (V m c main_v1 : S262144x128.Idx → Elt Ideal .f32)
    = shapeCast S262144x128 (m ((c : Thread nD τ).loc main_arg1)) shapeCasts_S33554432_S262144x128 := by
  show StableHlo.after hostOps0 (fun b => m (c, b)) (Proc.devRef .tc main_v1) = _
  after_results
  rfl

/-- Both inputs' block at point t starts at row 4096 t, lane 0. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Row r, lane l of the first input's block at point t is flat entry (4096 t + r) * 128 + l of the first argument. -/
theorem xblk_apply (c : Dev nD) (t : Fin cfg0.N) (ht : t.val < 64) (r : Fin 4096) (l : Fin 128) :
    xblk m c t (ix2 r l) = X m c (flatIx ⟨t.val, ht⟩ r l) := by
  show (iblk m c 0 t : Vec Ideal S4096x128 .f32) (ix2 r l) = _
  unfold iblk
  rw [View.read_apply]
  show V m c main_v0 (((cfg0.win 0).blk t).view.emb (ix2 r l)) = _
  rw [V_v0]
  refine (shapeCast_apply _ shapeCasts_S33554432_S262144x128 _ (flatIx ⟨t.val, ht⟩ r l) ?_).trans rfl
  rw [Shape.rowMajor_val_one, Shape.rowMajor_val_two, flatIx_val]
  show (4096 * t.val + r.val) * 128 + l.val = (win0_0.index t 0 * 4096 + 1 * r.val) * 128 + (win0_0.index t 1 * 128 + 1 * l.val)
  rw [(idx_facts t).1, (idx_facts t).2.1]
  omega

/-- The same of the second input. -/
theorem yblk_apply (c : Dev nD) (t : Fin cfg0.N) (ht : t.val < 64) (r : Fin 4096) (l : Fin 128) :
    yblk m c t (ix2 r l) = Y m c (flatIx ⟨t.val, ht⟩ r l) := by
  show (iblk m c 1 t : Vec Ideal S4096x128 .f32) (ix2 r l) = _
  unfold iblk
  rw [View.read_apply]
  show V m c main_v1 (((cfg0.win 1).blk t).view.emb (ix2 r l)) = _
  rw [V_v1]
  refine (shapeCast_apply _ shapeCasts_S33554432_S262144x128 _ (flatIx ⟨t.val, ht⟩ r l) ?_).trans rfl
  rw [Shape.rowMajor_val_one, Shape.rowMajor_val_two, flatIx_val]
  show (4096 * t.val + r.val) * 128 + l.val = (win0_1.index t 0 * 4096 + 1 * r.val) * 128 + (win0_1.index t 1 * 128 + 1 * l.val)
  rw [(idx_facts t).2.2.1, (idx_facts t).2.2.2]
  omega

/-- The corner the body loads at point 0 is the block's row 0, lane 0. -/
theorem corner_apply (x : FVec Ideal S4096x128 .f32) (j : S1x1.Idx) :
    corner (F := Ideal) x j = x (ix2 (0 : Fin 4096) (0 : Fin 128)) := by
  have h0 : (j 0).val < 1 := (j 0).isLt
  have h1 : (j 1).val < 1 := (j 1).isLt
  show x _ = x _
  refine congrArg x (funext fun a => Fin.ext ?_)
  match a with
  | ⟨0, _⟩ => show 0 + 1 * (j 0).val = 0; omega
  | ⟨1, _⟩ => show 0 + 1 * (j 1).val = 0; omega

/-- A point's block sum, in the specification's words. -/
theorem blockSum_eq (c : Dev nD) (n : ℕ) (h : n < cfg0.N) :
    (∑ r : Fin 4096, ∑ l : Fin 128, gap (xblk m c ⟨n, h⟩ (ix2 r l)) (yblk m c ⟨n, h⟩ (ix2 r l))
        * gap (xblk m c ⟨n, h⟩ (ix2 r l)) (yblk m c ⟨n, h⟩ (ix2 r l)))
      = blockSum (X m c) (Y m c) n := by
  have hN : cfg0.N = 64 := N_0
  have hn : n < 64 := by omega
  unfold blockSum
  rw [dif_pos hn]
  refine Finset.sum_congr rfl fun r _ => Finset.sum_congr rfl fun l _ => ?_
  unfold sqgap
  rw [xblk_apply m c ⟨n, h⟩ hn r l, yblk_apply m c ⟨n, h⟩ hn r l]

/-- THE ACCUMULATOR IS THE RUNNING TOTAL: by induction on the point. -/
theorem acc_apply (c : Dev nD) : ∀ (n : ℕ) (h : n < cfg0.N) (j : S1x1.Idx),
    acc m c n h j = chain (Ideal.ofBits .f32 0x00000000#32 + correction (X m c) (Y m c)) (blockSum (X m c) (Y m c)) n
  | 0, h, j => by
    have hN : cfg0.N = 64 := N_0
    rw [acc, pay3_apply, pay2_apply, pay1_apply, corner_apply, corner_apply, blockSum_eq m c 0 h,
      xblk_apply m c ⟨0, h⟩ (show (0 : ℕ) < 64 by decide) 0 0, yblk_apply m c ⟨0, h⟩ (show (0 : ℕ) < 64 by decide) 0 0]
    rfl
  | n + 1, h, j => by
    rw [acc, pay3_apply, blockSum_eq m c (n + 1) h, acc_apply c n (Nat.lt_of_succ_lt h) j]
    rfl

/-- The region's result, reshaped to a scalar, is the running total after the last point. -/
theorem result_apply (c : Dev nD) (i : S_.Idx) :
    (Host.divf (F := Ideal) (shapeCast S_ (result m c) shapeCasts_S1x1_S_) (constant (F := Ideal) S_ .f32 0x4C000000#32)) i
      = Ideal.div (chain (Ideal.ofBits .f32 0x00000000#32 + correction (X m c) (Y m c)) (blockSum (X m c) (Y m c)) 63)
          (Ideal.ofBits .f32 0x4C000000#32) := by
  show Ideal.div (shapeCast S_ (result m c) shapeCasts_S1x1_S_ i) (Ideal.ofBits .f32 0x4C000000#32) = _
  refine congrArg (fun e => Ideal.div e (Ideal.ofBits .f32 0x4C000000#32)) ?_
  refine (shapeCast_apply _ shapeCasts_S1x1_S_ i (ix2 (0 : Fin 1) (0 : Fin 1)) ?_).trans ?_
  · rw [Shape.rowMajor_val_two]
    have h : (S_.rowMajor i).val < 1 := (S_.rowMajor i).isLt
    show 0 * 1 + 0 = _
    omega
  exact acc_apply m c (62 + 1) lastLt _

end Cert.KernelIdeal.KValue

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.LibScatterOne.lean ====
/-
  A general lemma, about no particular program: an overwriting host scatter of ONE scalar update into a vector at one
  start index — what x.at[k].set(u) of a flat array lowers to (no window axis on the update, the operand's one axis
  inserted, the index array one word).  Read at an entry it is the update at the entry the index word names (read
  signed) and the operand's entry everywhere else.  Over the landing-index lemmas of the scatter reading file beside it.
-/
import proofs.«165581_j31714038514005_1_alg».proof.Proof.LibScatterRead

noncomputable section

open Idealize.ShloMosaic Idealize.ShloMosaic.ValueIdx

namespace Idealize.ShloMosaic.ScatterRead

/-- The start on the one operand axis is the one index word read signed. -/
theorem start_one {N : ℕ} (d : ScatterDims ⟨1, ![N]⟩ ⟨1, ![1]⟩ ⟨0, ![]⟩)
    (h1 : d.updateWindowDims = []) (h2 : d.insertedWindowDims = [0]) (h3 : d.scatterDimsToOperandDims = [0]) (h4 : d.indexVectorDim = 0)
    (idx : IVec ⟨1, ![1]⟩ 32) (j : (⟨0, ![]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- There is no window axis: the window coordinate is zero. -/
theorem window_one {N : ℕ} (d : ScatterDims ⟨1, ![N]⟩ ⟨1, ![1]⟩ ⟨0, ![]⟩)
    (h1 : d.updateWindowDims = []) (h2 : d.insertedWindowDims = [0]) (h3 : d.scatterDimsToOperandDims = [0]) (h4 : d.indexVectorDim = 0)
    (j : (⟨0, ![]⟩ : Shape).Idx) (b : Fin 1) :
    d.window j b = 0 := by
  obtain ⟨uw, iw, sd, iv, wf⟩ := d
  dsimp only at h1 h2 h3 h4; subst h1 h2 h3 h4
  obtain rfl : b = 0 := Subsingleton.elim _ _
  unfold ScatterDims.window
  rw [dif_neg (by simp [ScatterDims.sKept, Shape.kept])]

/-- The one update lands on entry a exactly when the index word, read signed, is a. -/
theorem resultIdx?_one {N : ℕ} (d : ScatterDims ⟨1, ![N]⟩ ⟨1, ![1]⟩ ⟨0, ![]⟩)
    (h1 : d.updateWindowDims = []) (h2 : d.insertedWindowDims = [0]) (h3 : d.scatterDimsToOperandDims = [0]) (h4 : d.indexVectorDim = 0)
    (idx : IVec ⟨1, ![1]⟩ 32) (j : (⟨0, ![]⟩ : Shape).Idx) (a : Fin N) :
    d.resultIdx? j idx = some (ix1 a) ↔ (idx (ix1 (0 : Fin 1))).toInt = (a.val : ℤ) := by
  rw [resultIdx?_eq_some_iff]
  constructor
  · intro h
    have := h 0
    rw [start_one d h1 h2 h3 h4, window_one d h1 h2 h3 h4, Nat.cast_zero, add_zero] at this
    exact this
  · intro h b
    obtain rfl : b = 0 := Subsingleton.elim _ _
    rw [start_one d h1 h2 h3 h4, window_one d h1 h2 h3 h4, Nat.cast_zero, add_zero]
    exact h

/-- x.at[k].set(u) READ AT ENTRY a: the update when a is the entry the index word names, the operand's entry otherwise.
    Generic in the element type. -/
theorem scatter_set_one {α : Type} {N : ℕ} (d : ScatterDims ⟨1, ![N]⟩ ⟨1, ![1]⟩ ⟨0, ![]⟩)
    (h1 : d.updateWindowDims = []) (h2 : d.insertedWindowDims = [0]) (h3 : d.scatterDimsToOperandDims = [0]) (h4 : d.indexVectorDim = 0)
    (x : (⟨1, ![N]⟩ : Shape).Idx → α) (idx : IVec ⟨1, ![1]⟩ 32) (upd : (⟨0, ![]⟩ : Shape).Idx → α) (k : Fin N)
    (hk : (idx (ix1 (0 : Fin 1))).toInt = (k.val : ℤ)) (a : Fin N) :
    Host.scatter d (fun _ b => b) x idx upd (ix1 a) = if a = k then upd ix0 else x (ix1 a) := by
  by_cases h : a = k
  · subst h
    rw [if_pos rfl]
    refine scatter_set_hit d x idx upd (ix1 a) ix0 ((resultIdx?_one d h1 h2 h3 h4 idx ix0 a).2 hk) ?_
    intro j _
    exact eq_ix0 j
  · rw [if_neg h]
    refine scatter_set_miss d x idx upd (ix1 a) ?_
    intro j e
    have ha := (resultIdx?_one d h1 h2 h3 h4 idx j a).1 e
    exact h (Fin.ext (by have := ha.symm.trans hk; exact_mod_cast this))

end Idealize.ShloMosaic.ScatterRead

end
-- ==== Proof.RefValue.lean ====
/-
  What the reference computes, over the extended reals, read one operation at a time: the gap of entry 0 as a scalar,
  its conditional rescale, that value set at entry 0 of the array of gaps, the squares summed from zero, the quotient
  by the constant 2^25.
-/
import proofs.«165581_j31714038514005_1_alg».proof.Proof.Gen.ReferenceIdeal.Read
import proofs.«165581_j31714038514005_1_alg».proof.Proof.LibScatterOne
import proofs.«165581_j31714038514005_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read Cert.MeanSq

abbrev Arr := (⟨S33554432, .f32⟩ : BufTy).Contents (Elt Ideal)

/-- The array of gaps at an entry. -/
theorem gaps_apply (x0 x1 : Arr) (i : S33554432.Idx) : val_main_v1 (F := Ideal) x0 x1 i = gap (x0 i) (x1 i) := rfl

/-- The scalar the reference slices out and reshapes: the gap of entry 0. -/
theorem d0_apply (x0 x1 : Arr) (i : S_.Idx) : val_main_v3 (F := Ideal) x0 x1 i = gap (x0 first) (x1 first) := by
  unfold val_main_v3
  refine (shapeCast_apply _ shapeCasts_S1_S_ i (ix1 (0 : Fin 1)) ?_).trans ?_
  · rw [Shape.rowMajor_val_one]
    have h : (S_.rowMajor i).val < 1 := (S_.rowMajor i).isLt
    show (0 : ℕ) = _
    omega
  have e : idx_main_v2 (ix1 (0 : Fin 1)) = first := funext fun a => Fin.ext (by
    match a with
    | ⟨0, _⟩ => rfl)
  rw [val_main_v2_apply, gaps_apply, e]

/-- The value set at entry 0: the rescaled gap of entry 0. -/
theorem set_apply (x0 x1 : Arr) (i : S_.Idx) : val_main_v12 (F := Ideal) x0 x1 i = rescale (gap (x0 first) (x1 first)) := by
  rw [val_main_v12_apply, val_main_v11_apply, val_main_v10_apply, val_main_v9_apply, val_main_v8_apply, val_main_v7_apply,
    val_main_v6_apply, val_main_v5_apply, val_main_v4_apply, d0_apply]
  rfl

/-- The index word of the set is zero. -/
theorem word_zero : (val_main_v13 (F := Ideal) (ix1 (0 : Fin 1))).toInt = (((0 : Fin 33554432)).val : ℤ) := by
  rw [val_main_v13_apply, val_main_c_apply]
  rfl

/-- The array after the set, at an entry: the corrected gap. -/
theorem fixed_apply (x0 x1 : Arr) (i : S33554432.Idx) : val_main_v14 (F := Ideal) x0 x1 i = fixed x0 x1 i := by
  obtain ⟨a, rfl⟩ : ∃ a : Fin 33554432, i = ix1 a := ⟨i 0, eq_ix1 i⟩
  unfold val_main_v14
  rw [ScatterRead.scatter_set_one scatter_S33554432_S1_S__n_0_0_0 rfl rfl rfl rfl _ _ _ (0 : Fin 33554432) word_zero a]
  unfold fixed
  by_cases h : a = 0
  · subst h
    rw [if_pos rfl, if_pos rfl, set_apply]
  · rw [if_neg h, if_neg (fun e => h (by have := congrFun e 0; exact this)), gaps_apply]

/-- THE REFERENCE'S RESULT: zero plus the sum of the corrected squares, divided by the constant. -/
theorem result_apply (x0 x1 : Arr) (i : S_.Idx) :
    val_main_v17 (F := Ideal) x0 x1 i
      = Ideal.div (Ideal.ofBits .f32 0x00000000#32 + ∑ j : Flat.Idx, fixed x0 x1 j * fixed x0 x1 j) (Ideal.ofBits .f32 0x4C000000#32) := by
  rw [val_main_v17_apply, val_main_v16_apply, val_main_cst_4_apply, val_main_cst_5_apply]
  refine congrArg (fun e => Ideal.div (Ideal.ofBits .f32 0x00000000#32 + e) (Ideal.ofBits .f32 0x4C000000#32)) ?_
  refine Finset.sum_congr rfl fun j _ => ?_
  rw [val_main_v15_apply, fixed_apply]
  rfl

end Cert.ReferenceIdeal.RefValue

end
-- ==== Proof.Finite.lean ====
/-
  From the precondition to real entries: the precondition says, of each input array, that every entry's absolute
  value is below the word that denotes +infinity; an extended real whose absolute value is below +infinity is a real.
-/
import proofs.«165581_j31714038514005_1_alg».proof.Pre_finite_inputs
import proofs.«165581_j31714038514005_1_alg».proof.Proof.Gen.Pre_finite_inputs
import Idealize.ShloMosaic.Lib.ReduceAll
import Idealize.ShloMosaic.PureOps.Ideal.Laws
import Idealize.ShloMosaic.Lib.ValueIdx

noncomputable section

open Idealize.ShloMosaic Idealize.ShloMosaic.ValueIdx

namespace Cert.Finite

/-- The word 0x7F800000 denotes +infinity. -/
theorem inf_word : Ideal.ofBits .f32 0x7F800000#32 = ⊤ := by simp [Ideal.ofBits, Ideal.ieee]

/-- An extended real whose absolute value compares below +infinity is a real. -/
theorem real_of_abs_lt (x : EReal) (h : Ideal.cmp .olt (max x (-x)) (Ideal.ofBits .f32 0x7F800000#32) = 1#1) :
    ∃ a : ℝ, x = (a : EReal) := by
  rw [inf_word] at h
  have hlt : max x (-x) < ⊤ := by
    by_contra hn
    simp [Ideal.cmp, hn] at h
  induction x using EReal.rec with
  | bot => simp at hlt
  | top => simp at hlt
  | coe r => exact ⟨r, rfl⟩

instance : Subsingleton Cert.Pre_finite_inputs.S_.Idx := ⟨fun a b => funext fun d => d.elim0⟩

/-- Under the precondition every entry of both arrays is a real. -/
theorem entries_real (x y : FVec Ideal Cert.Pre_finite_inputs.S33554432 .f32)
    (h : Cert.Pre_finite_inputs.fn (F := Ideal) x y = fun _ => 1#1) (i : Cert.Pre_finite_inputs.S33554432.Idx) :
    (∃ a : ℝ, x i = (a : EReal)) ∧ (∃ b : ℝ, y i = (b : EReal)) := by
  have h0 := congrFun h ix0
  dsimp only [Cert.Pre_finite_inputs.fn] at h0
  obtain ⟨hx, hy⟩ := IntOp.andi_eq_one.mp h0
  have ex := Host.reduce_andi_all _ _ _ _ ix0 hx i
  have ey := Host.reduce_andi_all _ _ _ _ ix0 hy i
  exact ⟨real_of_abs_lt _ ex, real_of_abs_lt _ ey⟩

end Cert.Finite

end
-- ==== Proof.lean ====
/-
  The mean of squared gaps with entry 0's gap conditionally rescaled: a grid kernel against a host reference.

  Both programs take two flat arrays x, y of 2^25 f32 entries and return one scalar.  With d i = |x i - y i| and
  c = d 0 times the constant 0.8 when d 0 is exactly 3, 4, 5 or 6 (else c = d 0):

    the reference sets entry 0 of d to c and returns (0 + the sum of all squares) / 2^25;

    the kernel views the arrays as 262144 x 128, walks 64 blocks of 4096 rows, and keeps a one-entry accumulator:
    at block 0 it starts it at 0 + (c * c - d 0 * d 0), at every block it adds the block's sum of the UNCORRECTED
    squares (lanes first, then rows), after block 63 it writes the accumulator out, and the host divides by 2^25.

  Over the extended reals the two totals agree because a finite sum may be taken in any order and grouping, and because
  (c * c - d 0 * d 0) + d 0 * d 0 = c * c when d 0 * d 0 is a real — which the precondition gives: every input entry
  is finite, so x 0 and y 0 are reals and so is their gap's square.  The comparisons with 3, 4, 5, 6, the constant 0.8
  and the divisor 2^25 are the same words on both sides and are never evaluated.

  The frames of the two kernel programs and the reference's run are the generated ones; the kernel's value is read off
  its generated frame run (the accumulator by induction over the grid points), the reference's off its generated run,
  one operation at a time.  Nothing is rewritten by the ideal pass, so the idealization claim is trivial.
-/
import proofs.«165581_j31714038514005_1_alg».proof.Defs
import proofs.«165581_j31714038514005_1_alg».proof.Proof.Gen.Kernel
import proofs.«165581_j31714038514005_1_alg».proof.Proof.Gen.Kernel.Skeleton
import proofs.«165581_j31714038514005_1_alg».proof.Proof.Gen.Kernel.Launch
import proofs.«165581_j31714038514005_1_alg».proof.Proof.Gen.Kernel.Points
import proofs.«165581_j31714038514005_1_alg».proof.Proof.Gen.Kernel.Frame
import proofs.«165581_j31714038514005_1_alg».proof.Proof.Gen.KernelIdeal
import proofs.«165581_j31714038514005_1_alg».proof.Proof.Gen.KernelIdeal.Skeleton
import proofs.«165581_j31714038514005_1_alg».proof.Proof.Gen.KernelIdeal.Launch
import proofs.«165581_j31714038514005_1_alg».proof.Proof.Gen.KernelIdeal.Points
import proofs.«165581_j31714038514005_1_alg».proof.Proof.Gen.KernelIdeal.Frame
import proofs.«165581_j31714038514005_1_alg».proof.Proof.Gen.ReferenceIdeal
import proofs.«165581_j31714038514005_1_alg».proof.Proof.Gen.ReferenceIdeal.Run
import proofs.«165581_j31714038514005_1_alg».proof.Proof.Gen.ReferenceIdeal.Read
import proofs.«165581_j31714038514005_1_alg».proof.Proof.Gen.Pre_finite_inputs
import proofs.«165581_j31714038514005_1_alg».proof.Proof.KernelValue
import proofs.«165581_j31714038514005_1_alg».proof.Proof.RefValue
import proofs.«165581_j31714038514005_1_alg».proof.Proof.Finite
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From arguments that agree and are finite, the kernel's scalar and the reference's are the same extended real:
    both are a total divided by the same constant, and the totals agree by the specification's law. -/
theorem algebraic : Cert.algebraic_KernelIdeal_ReferenceIdeal := by
  intro m ρ m' ρ' hpre hagree
  refine ⟨fun c => Host.divf (F := Ideal)
      (shapeCast Cert.KernelIdeal.S_ (Cert.KernelIdeal.Acc.result m c) Cert.KernelIdeal.Gen.shapeCasts_S1x1_S_)
      (constant (F := Ideal) Cert.KernelIdeal.S_ .f32 0x4C000000#32),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  funext i
  obtain ⟨⟨a, ha⟩, ⟨b, hb⟩⟩ := Cert.Finite.entries_real _ _ (hpre c) Cert.MeanSq.first
  refine (Cert.ReferenceIdeal.RefValue.result_apply _ _ i).trans ?_
  refine Eq.trans ?_ (Cert.KernelIdeal.KValue.result_apply m c i).symm
  rw [Cert.MeanSq.total_eq _ _ _ a b ha hb]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
